-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part2 {F : FTy → Type} [FloatOps F] (main_arg7 : FVec F S1024x1024 .f32) (main_arg8 : FVec F S1024x1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1 .f32 := Host.absf main_arg8
  let main_cst_14 : FVec F S_ .f32 := constant S_ .f32 0x7F800000#32
  let main_v40 : FVec F S1024x1 .f32 := broadcastInDim S1024x1 ![] bcast_S_S1024x1 main_cst_14
  let main_v41 : IVec S1024x1 1 := cmpf .olt main_v39 main_v40
  let main_c_15 : IVec S_ 1 := constantI S_ 1 1#1
  let main_v42 : IVec S_ 1 := (fun x v => Host.reduce IntOp.andi x v reducesTo_S1024x1_S_d0_1 h_S_) main_v41 main_c_15
  let main_v43 : IVec S_ 1 := andi main_v38 main_v42
  main_v43

def fn_part1 {F : FTy → Type} [FloatOps F] (main_arg4 : FVec F S8x1024x1024 .f32) (main_arg5 : FVec F S1024x1024 .f32) (main_arg6 : FVec F S1024x1024 .f32) (main_arg7 : FVec F S1024x1024 .f32) (main_arg8 : FVec F S1024x1 .f32) (main_v13 : IVec S_ 1) (main_v16 : IVec S8x1024x1024 1) : IVec S_ 1 :=
  let main_c_5 : IVec S_ 1 := constantI S_ 1 1#1
  let main_v17 : IVec S_ 1 := (fun x v => Host.reduce IntOp.andi x v reducesTo_S8x1024x1024_S_d0_1_2 h_S_) main_v16 main_c_5
  let main_v18 : IVec S_ 1 := andi main_v13 main_v17
  let main_v19 : FVec F S8x1024x1024 .f32 := Host.absf main_arg4
  let main_cst_6 : FVec F S_ .f32 := constant S_ .f32 0x7F800000#32
  let main_v20 : FVec F S8x1024x1024 .f32 := broadcastInDim S8x1024x1024 ![] bcast_S_S8x1024x1024 main_cst_6
  let main_v21 : IVec S8x1024x1024 1 := cmpf .olt main_v19 main_v20
  let main_c_7 : IVec S_ 1 := constantI S_ 1 1#1
  let main_v22 : IVec S_ 1 := (fun x v => Host.reduce IntOp.andi x v reducesTo_S8x1024x1024_S_d0_1_2 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x2 .f32) (main_arg2 : FVec F S8x1024x1024 .f32) (main_arg3 : FVec F S8x1024x1024 .f32) (main_arg4 : FVec F S8x1024x1024 .f32) (main_arg5 : FVec F S1024x1024 .f32) (main_arg6 : FVec F S1024x1024 .f32) (main_arg7 : FVec F S1024x1024 .f32) (main_arg8 : FVec F S1024x1 .f32) (main_arg9 : IVec S4096x2 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S8x1024x1024 .f32 := Host.absf main_arg2
  let main_cst_2 : FVec F S_ .f32 := constant S_ .f32 0x7F800000#32
  let main_v10 : FVec F S8x1024x1024 .f32 := broadcastInDim S8x1024x1024 ![] bcast_S_S8x1024x1024 main_cst_2
  let main_v11 : IVec S8x1024x1024 1 := cmpf .olt main_v9 main_v10
  let main_c_3 : IVec S_ 1 := constantI S_ 1 1#1
  let main_v12 : IVec S_ 1 := (fun x v => Host.reduce IntOp.andi x v reducesTo_S8x1024x1024_S_d0_1_2 h_S_) main_v11 main_c_3
  let main_v13 : IVec S_ 1 := andi main_v8 main_v12
  let main_v14 : FVec F S8x1024x1024 .f32 := Host.absf main_arg3
  let main_cst_4 : FVec F S_ .f32 := constant S_ .f32 0x7F800000#32
  let main_v15 : FVec F S8x1024x1024 .f32 := broadcastInDim S8x1024x1024 ![] bcast_S_S8x1024x1024 main_cst_4
  let main_v16 : IVec S8x1024x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S8192 : Shape := ⟨1, ![8192]⟩
abbrev S4096x2x1024 : Shape := ⟨3, ![4096, 2, 1024]⟩
abbrev S8192x1024 : Shape := ⟨2, ![8192, 1024]⟩
abbrev S_ : Shape := ⟨0, ![]⟩
abbrev S8192x1 : Shape := ⟨2, ![8192, 1]⟩
abbrev S1x512x1024 : Shape := ⟨3, ![1, 512, 1024]⟩
abbrev S1x1024x1024 : Shape := ⟨3, ![1, 1024, 1024]⟩
abbrev S512x1024 : Shape := ⟨2, ![512, 1024]⟩
abbrev S4096x2x1 : Shape := ⟨3, ![4096, 2, 1]⟩
abbrev S512x1 : Shape := ⟨2, ![512, 1]⟩

abbrev nBuf : Space → Nat
  | .hbm => 55
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S4096x2, .i32⟩
  | .hbm, ⟨10, _⟩ => ⟨S4096x1024, .bf16⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S4096x2x1024, .bf16⟩
  | .hbm, ⟨16, _⟩ => ⟨S8192x1024, .bf16⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192x1024, .bf16⟩
  | .hbm, ⟨26, _⟩ => ⟨S8x1024x1024, .bf16⟩
  | .hbm, ⟨27, _⟩ => ⟨S8x1024x1024, .bf16⟩
  | .hbm, ⟨28, _⟩ => ⟨S8x1024x1024, .bf16⟩
  | .hbm, ⟨29, _⟩ => ⟨S8x1024x1024, .bf16⟩
  | .hbm, ⟨30, _⟩ => ⟨S8x1024x1024, .f32⟩
  | .hbm, ⟨31, _⟩ => ⟨S8192x1024, .f32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x1024, .f32⟩
  | .hbm, ⟨44, _⟩ => ⟨S4096x2x1024, .f32⟩
  | .hbm, ⟨45, _⟩ => ⟨S4096x2x1, .f32⟩
  | .hbm, ⟨46, _⟩ => ⟨S4096x2x1024, .f32⟩
  | .hbm, ⟨47, _⟩ => ⟨S4096x2x1024, .f32⟩
  | .hbm, ⟨48, _⟩ => ⟨S_, .f32⟩
  | .hbm, ⟨49, _⟩ => ⟨S4096x1024, .f32⟩
  | .hbm, ⟨50, _⟩ => ⟨S1024x1024, .bf16⟩
  | .hbm, ⟨51, _⟩ => ⟨S1024x1024, .bf16⟩
  | .hbm, ⟨52, _⟩ => ⟨S1024x1024, .bf16⟩
  | .hbm, ⟨53, _⟩ => ⟨S1024x1, .bf16⟩
  | .hbm, ⟨54, _⟩ => ⟨S4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1, .bf16⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_v0 : Ref sig .tc := ⟨.hbm, 12, rfl⟩
abbrev main_call0_v1_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_call1_v1_0 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  shapeCasts_S4096x2_S8192 : S4096x2.ShapeCasts S8192
  bcast_S4096x1024_S4096x2x1024_0_2 : S4096x1024.BroadcastsInDim S4096x2x1024 (![0, 2] : Fin 2 → Fin S4096x2x1024.rank)
  shapeCasts_S4096x2x1024_S8192x1024 : S4096x2x1024.ShapeCasts S8192x1024
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  shapeCasts_S8x1024x1024_S8192x1024 : S8x1024x1024.ShapeCasts S8192x1024
  shapeCasts_S8192x1024_S4096x2x1024 : S8192x1024.ShapeCasts S4096x2x1024
  bcast_S4096x2_S4096x2x1_0_1 : S4096x2.BroadcastsInDim S4096x2x1 (![0, 1] : Fin 2 → Fin S4096x2x1.rank)
  bcast_S4096x2x1_S4096x2x1024_0_1_2 : S4096x2x1.BroadcastsInDim S4096x2x1024 (![0, 1, 2] : Fin 3 → Fin S4096x2x1024.rank)
  reducesTo_S4096x2x1024_S4096x1024_d1 : S4096x2x1024.ReducesTo [1] S4096x1024
  h_S_ : 0 < S_.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S512x1_S512x1024 : S512x1.Broadcasts S512x1024
  gather_S8192x1024_S8192x1_S8192x1024_1_0_n_n_0_1_11024_wf : GatherDims.WF S8192x1024 S8192x1 S8192x1024 [1] [0] [] [0] [] 1 ![1, 1024]
  dot_S512x1024_S1024x1024_S512x1024_1_0_0_1_n_n_wf : DotDims.WF S512x1024 S1024x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .bf16 = 32 ∨ (Rect.block (s := S8x1024x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .bf16 = 32 ∨ (Rect.block (s := S8x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .bf16 = 32 ∨ (Rect.block (s := S8x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .bf16 = 32 ∨ (Rect.block (s := S8x1024x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x1024x1024.size a
  hwx0_4 : ∀ i : grid0.Coords, EltTy.bits .f32 = 32 ∨ (Rect.block (s := S8x1024x1024) S1x512x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .bf16 = 32 ∨ (Rect.block (s := S1024x1) S1024x1.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S4096x1024.size a
  hwx1_6 : ∀ i : grid1.Coords, EltTy.bits .f32 = 32 ∨ (Rect.block (s := S4096x1024) S512x1024.size (cc1_transform_6 i) (hinb1_6 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v12) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2 : Shape := ⟨2, ![4096, 2]⟩
abbrev S8x1024x1024 : Shape := ⟨3, ![8, 1024, 1024]⟩
abbrev S1024x1024 : Shape := ⟨2, ![1024, 1024]⟩
abbrev S1024x1 : Shape := ⟨2, ![1024, 1]⟩
abbrev S8192 : Shape := ⟨1, ![8192]⟩
abbrev S4096x2x1024 : Shape := ⟨3, ![4096, 2, 1024]⟩
abbrev S8192x1024 : Shape := ⟨2, ![8192, 1024]⟩
abbrev S_ : Shape := ⟨0, ![]⟩
abbrev S8192x1 : Shape := ⟨2, ![8192, 1]⟩
abbrev S4096x2x1 : Shape := ⟨3, ![4096, 2, 1]⟩
abbrev S4096x1 : Shape := ⟨2, ![4096, 1]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1, .f32⟩
  | .hbm, ⟨9, _⟩ => ⟨S4096x2, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S4096x2x1024, .f32⟩
  | .hbm, ⟨15, _⟩ => ⟨S8192x1024, .f32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1024, .f32⟩
  | .hbm, ⟨25, _⟩ => ⟨S8x1024x1024, .f32⟩
  | .hbm, ⟨26, _⟩ => ⟨S8x1024x1024, .f32⟩
  | .hbm, ⟨27, _⟩ => ⟨S8x1024x1024, .f32⟩
  | .hbm, ⟨28, _⟩ => ⟨S8x1024x1024, .f32⟩
  | .hbm, ⟨29, _⟩ => ⟨S_, .f32⟩
  | .hbm, ⟨30, _⟩ => ⟨S8x1024x1024, .f32⟩
  | .hbm, ⟨31, _⟩ => ⟨S8x1024x1024, .f32⟩
  | .hbm, ⟨32, _⟩ => ⟨S_, .f32⟩
  | .hbm, ⟨33, _⟩ => ⟨S8x1024x1024, .f32⟩
  | .hbm, ⟨34, _⟩ => ⟨S8x1024x1024, .f32⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S8192x1024, .f32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S8192x1, .i32⟩
  | .hbm, ⟨51, _⟩ => ⟨S8192x1024, .f32⟩
  | .hbm, ⟨52, _⟩ => ⟨S4096x2x1024, .f32⟩
  | .hbm, ⟨53, _⟩ => ⟨S4096x2x1, .f32⟩
  | .hbm, ⟨54, _⟩ => ⟨S4096x2x1024, .f32⟩
  | .hbm, ⟨55, _⟩ => ⟨S4096x2x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1_0 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  shapeCasts_S4096x2_S8192 : S4096x2.ShapeCasts S8192
  bcast_S4096x1024_S4096x2x1024_0_2 : S4096x1024.BroadcastsInDim S4096x2x1024 (![0, 2] : Fin 2 → Fin S4096x2x1024.rank)
  shapeCasts_S4096x2x1024_S8192x1024 : S4096x2x1024.ShapeCasts S8192x1024
  bcast_S_S8192 : S_.BroadcastsInDim S8192 (![] : Fin 0 → Fin S8192.rank)
  bcast_S8192_S8192x1_0 : S8192.BroadcastsInDim S8192x1 (![0] : Fin 1 → Fin S8192x1.rank)
  shapeCasts_S8192x1024_S8x1024x1024 : S8192x1024.ShapeCasts S8x1024x1024
  bcast_S_S8x1024x1024 : S_.BroadcastsInDim S8x1024x1024 (![] : Fin 0 → Fin S8x1024x1024.rank)
  shapeCasts_S8x1024x1024_S8192x1024 : S8x1024x1024.ShapeCasts S8192x1024
  shapeCasts_S8192x1024_S4096x2x1024 : S8192x1024.ShapeCasts S4096x2x1024
  bcast_S4096x2_S4096x2x1_0_1 : S4096x2.BroadcastsInDim S4096x2x1 (![0, 1] : Fin 2 → Fin S4096x2x1.rank)
  bcast_S4096x2x1_S4096x2x1024_0_1_2 : S4096x2x1.BroadcastsInDim S4096x2x1024 (![0, 1, 2] : Fin 3 → Fin S4096x2x1024.rank)
  reducesTo_S4096x2x1024_S4096x1024_d1 : S4096x2x1024.ReducesTo [1] S4096x1024
  h_S_ : 0 < S_.numel
  bcast_S_S4096x1024 : S_.BroadcastsInDim S4096x1024 (![] : Fin 0 → Fin S4096x1024.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  gather_S8192x1024_S8192x1_S8192x1024_1_0_n_n_0_1_11024_wf : GatherDims.WF S8192x1024 S8192x1 S8192x1024 [1] [0] [] [0] [] 1 ![1, 1024]
  dot_S8x1024x1024_S8x1024x1024_S8x1024x1024_2_1_1_2_0_0_wf : DotDims.WF S8x1024x1024 S8x1024x1024 S8x1024x1024 [2] [1] [1] [2] [0] [0]
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []

variable [Facts₀]

def comparator_i32_i32_d0 : BitVec 32 × BitVec 32 → BitVec 32 × BitVec 32 → BitVec 1 :=
  fun l r =>
    let v2 := IntOp.cmpi .slt l.1 r.1
    v2
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.KernelHost.lean ====
/-
  The kernel program's host operations around its two pipelined calls, read as functions of the launch memory.

  Before the first call the host sorts the 8192 routing slots by expert (a stable sort of the flattened expert ids
  carrying the slot numbers), repeats every token's hidden row once per routing slot, gathers the repeated rows in sorted
  order and groups them by expert: the first call's activation operand.  Between the calls it sorts the sorting
  permutation itself (its inverse), gathers the first call's rows back into slot order, weighs each slot by its routing
  weight and sums the two slots of every token: the second call's routed operand.  The weights are passed through a
  change of float format only.
-/
import proofs.«156974_j62388694942421_1_alg».proof.Proof.Gen.KernelIdeal.Frame
import Idealize.ShloMosaic.Lib.StableHlo.Run
import Idealize.ShloMosaic.Lib.ValueIdx

set_option maxRecDepth 16384

noncomputable section

open scoped BigOperators

namespace Cert.KernelIdeal.HostGlue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]

/-- A whole array changed in float format, single to half-width exponent-preserving: the identity at the exact instance. -/
def narrow (S : Shape) : (⟨S, .f32⟩ : BufTy).Contents (Elt F) → (⟨S, .bf16⟩ : BufTy).Contents (Elt F) :=
  (truncf .bf16 · bitsLt_bf16_f32)

/-- The routing slots in sorted order: slot numbers carried through a stable sort of the flattened expert ids. -/
def order (x9 : (⟨S4096x2, .i32⟩ : BufTy).Contents (Elt F)) : (⟨S8192, .i32⟩ : BufTy).Contents (Elt F) :=
  (Host.sort2 S8192 0 comparator_i32_i32_d0 (shapeCast _ x9 shapeCasts_S4096x2_S8192) (iotaInDim S8192 32 0)).2

/-- The inverse arrangement: the sorted order's own sorting permutation. -/
def invOrder (x9 : (⟨S4096x2, .i32⟩ : BufTy).Contents (Elt F)) : (⟨S8192, .i32⟩ : BufTy).Contents (Elt F) :=
  (Host.sort2 S8192 0 comparator_i32_i32_d0 (order (F := F) x9) (iotaInDim S8192 32 0)).2

/-- A list of row numbers as the one-column array of start indices a row gather takes, a negative number counted from
    the end. -/
def rowIdx (o : (⟨S8192, .i32⟩ : BufTy).Contents (Elt F)) : (⟨S8192x1, .i32⟩ : BufTy).Contents (Elt F) :=
  broadcastInDim S8192x1 ![0] bcast_S8192_S8192x1_0
    (select (cmpi .slt o (broadcastInDim S8192 ![] bcast_S_S8192 (constantI S_ 32 0#32)))
      (addi o (broadcastInDim S8192 ![] bcast_S_S8192 (constantI S_ 32 8192#32))) o)

/-- DISPATCH: the hidden rows, changed in format, repeated per routing slot, gathered in sorted order, grouped by expert. -/
def dispatch (x0 : (⟨S4096x1024, .f32⟩ : BufTy).Contents (Elt F)) (x9 : (⟨S4096x2, .i32⟩ : BufTy).Contents (Elt F)) :
    (⟨S8x1024x1024, .bf16⟩ : BufTy).Contents (Elt F) :=
  shapeCast _ (Host.gather gather_S8192x1024_S8192x1_S8192x1024_1_0_n_n_0_1_11024
    (shapeCast _ (broadcastInDim S4096x2x1024 ![0, 2] bcast_S4096x1024_S4096x2x1024_0_2
      (narrow (F := F) S4096x1024 x0)) shapeCasts_S4096x2x1024_S8192x1024)
    (rowIdx (F := F) (order (F := F) x9))) shapeCasts_S8192x1024_S8x1024x1024

/-- COMBINE: the experts' rows gathered back into slot order, each slot weighed by its routing weight, the two slots of a
    token summed. -/
def combine (y : (⟨S8x1024x1024, .f32⟩ : BufTy).Contents (Elt F)) (x1 : (⟨S4096x2, .f32⟩ : BufTy).Contents (Elt F))
    (x9 : (⟨S4096x2, .i32⟩ : BufTy).Contents (Elt F)) : (⟨S4096x1024, .f32⟩ : BufTy).Contents (Elt F) :=
  Host.reduceAdd
    (mulf
      (shapeCast _ (Host.gather gather_S8192x1024_S8192x1_S8192x1024_1_0_n_n_0_1_11024
        (shapeCast _ y shapeCasts_S8x1024x1024_S8192x1024) (rowIdx (F := F) (invOrder (F := F) x9))) shapeCasts_S8192x1024_S4096x2x1024)
      (broadcastInDim S4096x2x1024 ![0, 1, 2] bcast_S4096x2x1_S4096x2x1024_0_1_2
        (broadcastInDim S4096x2x1 ![0, 1] bcast_S4096x2_S4096x2x1_0_1 x1)))
    (constant S_ .f32 0x00000000#32) reducesTo_S4096x2x1024_S4096x1024_d1 h_S_

/-! ## What a stretch of host operations leaves in a buffer, as a function of what it finds

Each stretch is read once over arbitrary contents found: the stable sort's carried numbers from the flattened keys, the
dispatched rows from the narrowed hidden rows and the sorted slot numbers, the combined rows from the experts' flat rows,
the inverse arrangement and the routing weights. -/

section Stretch

variable (V : Valuation τ sig (Elt Ideal))

/-- The first sort carries the slot numbers 0, 1, … through the stable sort of the keys it finds. -/
private theorem sortA_carried : StableHlo.after hostOps0_1 V (Proc.devRef .tc main_v2)
    = (Host.sort2 S8192 0 comparator_i32_i32_d0
        (V (Proc.devRef .tc main_v1) : (⟨S8192, .i32⟩ : BufTy).Contents (Elt Ideal)) (iotaInDim S8192 32 0)).2 := by
  after_results
  rfl

/-- The second sort carries the slot numbers 0, 1, … through the stable sort of the first sort's carried numbers. -/
private theorem sortB_carried : StableHlo.after hostOps1_1 V (Proc.devRef .tc main_v18)
    = (Host.sort2 S8192 0 comparator_i32_i32_d0
        (V (Proc.devRef .tc main_v2) : (⟨S8192, .i32⟩ : BufTy).Contents (Elt Ideal)) (iotaInDim S8192 32 0)).2 := by
  after_results
  rfl

/-- The dispatched rows: the narrowed hidden rows repeated per slot, gathered at the sorted slot numbers as row
    indices, grouped by expert. -/
private theorem dispatch_stretch : StableHlo.after hostOps0_2 V (Proc.devRef .tc main_v12)
    = shapeCast _ (Host.gather gather_S8192x1024_S8192x1_S8192x1024_1_0_n_n_0_1_11024
        (shapeCast _ (broadcastInDim S4096x2x1024 ![0, 2] bcast_S4096x1024_S4096x2x1024_0_2
          (V (Proc.devRef .tc main_v0) : (⟨S4096x1024, .bf16⟩ : BufTy).Contents (Elt Ideal))) shapeCasts_S4096x2x1024_S8192x1024)
        (rowIdx (F := Ideal) (V (Proc.devRef .tc main_v2) : (⟨S8192, .i32⟩ : BufTy).Contents (Elt Ideal))))
      shapeCasts_S8192x1024_S8x1024x1024 := by
  after_results
  unfold rowIdx
  rfl

/-- The combined rows: the experts' flat rows gathered at the inverse arrangement as row indices, regrouped by token and
    slot, each slot times its routing weight, the two slots of a token summed from zero. -/
private theorem combine_stretch : StableHlo.after hostOps1_2 V (Proc.devRef .tc main_v30)
    = Host.reduceAdd (F := Ideal)
        (mulf
          (shapeCast _ (Host.gather gather_S8192x1024_S8192x1_S8192x1024_1_0_n_n_0_1_11024
            (V (Proc.devRef .tc main_v17) : (⟨S8192x1024, .f32⟩ : BufTy).Contents (Elt Ideal))
            (rowIdx (F := Ideal) (V (Proc.devRef .tc main_v18) : (⟨S8192, .i32⟩ : BufTy).Contents (Elt Ideal))))
            shapeCasts_S8192x1024_S4096x2x1024)
          (broadcastInDim S4096x2x1024 ![0, 1, 2] bcast_S4096x2x1_S4096x2x1024_0_1_2
            (broadcastInDim S4096x2x1 ![0, 1] bcast_S4096x2_S4096x2x1_0_1
              (V (Proc.devRef .tc main_arg1) : (⟨S4096x2, .f32⟩ : BufTy).Contents (Elt Ideal)))))
        (constant S_ .f32 0x00000000#32) reducesTo_S4096x2x1024_S4096x1024_d1 h_S_ := by
  after_results
  unfold rowIdx
  rfl

/-- The stretch before the first call leaves the sorted slot numbers as it finds them. -/
private theorem dispatch_keeps_order : StableHlo.after hostOps0_2 V (Proc.devRef .tc main_v2) = V (Proc.devRef .tc main_v2) := by
  after_results

/-- The flattening after the first call: the experts' rows as 8192 flat rows. -/
private theorem flatten_stretch : StableHlo.after hostOps1 V (Proc.devRef .tc main_v17)
    = shapeCast _ (V (Proc.devRef .tc main_v16) : (⟨S8x1024x1024, .f32⟩ : BufTy).Contents (Elt Ideal))
        shapeCasts_S8x1024x1024_S8192x1024 := by
  after_results
  rfl

/-- It leaves the sorted slot numbers as it finds them. -/
private theorem flatten_keeps_order : StableHlo.after hostOps1 V (Proc.devRef .tc main_v2) = V (Proc.devRef .tc main_v2) := by
  after_results

/-- The second sort leaves the experts' flat rows as it finds them. -/
private theorem sortB_keeps_rows : StableHlo.after hostOps1_1 V (Proc.devRef .tc main_v17) = V (Proc.devRef .tc main_v17) := by
  after_results

end Stretch

variable (m : (ℓ : Loc nD τ sig) → Buf (Elt Ideal) ℓ) (ρ : Dev nD → PrngReg)

/-! ## The buffers between the stretches

The hidden rows are narrowed and the expert ids flattened before the first sort; neither sort and no later stretch
before the first call writes them again, and the first call writes none of them. -/

/-- Before the first sort: the flattened expert ids. -/
private theorem W1_keys (c : Dev nD) : W1 m ρ c (Proc.devRef .tc main_v1)
    = shapeCast _ (m ((c.tc : Thread nD τ).loc main_arg9)) shapeCasts_S4096x2_S8192 := by
  show StableHlo.after hostOps0 (W0 m ρ c) (Proc.devRef .tc main_v1) = _
  after_results
  rfl

/-- After the first sort: the narrowed hidden rows, which the sort does not write. -/
private theorem W2_hidden (c : Dev nD) : W2 m ρ c (Proc.devRef .tc main_v0)
    = narrow (F := Ideal) S4096x1024 (m ((c.tc : Thread nD τ).loc main_arg0)) := by
  show StableHlo.after hostOps0_1 (W1 m ρ c) (Proc.devRef .tc main_v0) = _
  after_results
  rfl

/-- After the first sort: the routing slots in sorted order. -/
private theorem W2_order (c : Dev nD) : W2 m ρ c (Proc.devRef .tc main_v2)
    = order (F := Ideal) (m ((c.tc : Thread nD τ).loc main_arg9)) := by
  show StableHlo.after hostOps0_1 (W1 m ρ c) (Proc.devRef .tc main_v2) = _
  rw [sortA_carried, W1_keys]
  rfl

/-- When the first call is entered the routing slots in sorted order stand as the first sort left them. -/
private theorem W3_order (c : Dev nD) : W3 m ρ c (Proc.devRef .tc main_v2)
    = order (F := Ideal) (m ((c.tc : Thread nD τ).loc main_arg9)) := by
  show StableHlo.after hostOps0_2 (W2 m ρ c) (Proc.devRef .tc main_v2) = _
  rw [dispatch_keeps_order, W2_order]

/-- The first call writes its own five arrays only; the sorted slot numbers are none of them. -/
private theorem W4_order (c : Dev nD) : W4 m ρ c (Proc.devRef .tc main_v2)
    = order (F := Ideal) (m ((c.tc : Thread nD τ).loc main_arg9)) := by
  rw [W4_of_ne m ρ c main_v2 (by decide), W3_order]

/-- After the first call its output array holds what the pipeline leaves there. -/
private theorem W4_out (c : Dev nD) : W4 m ρ c (Proc.devRef .tc main_v16) = (dat0 (F := Ideal) (V3 m ρ) c).arrAt 4 cfg0.N :=
  W4_arr m ρ c 4

/-- After the flattening: the experts' rows as 8192 flat rows. -/
private theorem W5_rows (c : Dev nD) : W5 m ρ c (Proc.devRef .tc main_v17)
    = shapeCast _ ((dat0 (F := Ideal) (V3 m ρ) c).arrAt 4 cfg0.N : (⟨S8x1024x1024, .f32⟩ : BufTy).Contents (Elt Ideal))
        shapeCasts_S8x1024x1024_S8192x1024 := by
  show StableHlo.after hostOps1 (W4 m ρ c) (Proc.devRef .tc main_v17) = _
  rw [flatten_stretch, W4_out]

/-- After the flattening the sorted slot numbers are as the first sort left them. -/
private theorem W5_order (c : Dev nD) : W5 m ρ c (Proc.devRef .tc main_v2)
    = order (F := Ideal) (m ((c.tc : Thread nD τ).loc main_arg9)) := by
  show StableHlo.after hostOps1 (W4 m ρ c) (Proc.devRef .tc main_v2) = _
  rw [flatten_keeps_order, W4_order]

/-- After the second sort: the experts' flat rows. -/
private theorem W6_rows (c : Dev nD) : W6 m ρ c (Proc.devRef .tc main_v17)
    = shapeCast _ ((dat0 (F := Ideal) (V3 m ρ) c).arrAt 4 cfg0.N : (⟨S8x1024x1024, .f32⟩ : BufTy).Contents (Elt Ideal))
        shapeCasts_S8x1024x1024_S8192x1024 := by
  show StableHlo.after hostOps1_1 (W5 m ρ c) (Proc.devRef .tc main_v17) = _
  rw [sortB_keeps_rows, W5_rows]

/-- After the second sort: the inverse arrangement. -/
private theorem W6_invOrder (c : Dev nD) : W6 m ρ c (Proc.devRef .tc main_v18)
    = invOrder (F := Ideal) (m ((c.tc : Thread nD τ).loc main_arg9)) := by
  show StableHlo.after hostOps1_1 (W5 m ρ c) (Proc.devRef .tc main_v18) = _
  rw [sortB_carried, W5_order]
  rfl

/-- The routing weights are an argument no stretch and no call writes. -/
private theorem W6_weights (c : Dev nD) : W6 m ρ c (Proc.devRef .tc main_arg1) = m ((c.tc : Thread nD τ).loc main_arg1) := by
  show StableHlo.after hostOps1_1 (W5 m ρ c) (Proc.devRef .tc main_arg1) = _
  after_results
  rw [W4_of_ne m ρ c main_arg1 (by decide)]
  after_results

/-! ## What the first call finds in its operands -/

theorem entry0_xs (c : Dev nD) : V3 m ρ c main_v12
    = dispatch (F := Ideal) (m ((c.tc : Thread nD τ).loc main_arg0)) (m ((c.tc : Thread nD τ).loc main_arg9)) := by
  show StableHlo.after hostOps0_2 (W2 m ρ c) (Proc.devRef .tc main_v12) = _
  rw [dispatch_stretch, W2_hidden, W2_order]
  rfl

theorem entry0_wg (c : Dev nD) : V3 m ρ c main_v13 = narrow (F := Ideal) S8x1024x1024 (m ((c.tc : Thread nD τ).loc main_arg2)) := by
  show StableHlo.after hostOps0_2 (W2 m ρ c) (Proc.devRef .tc main_v13) = _
  after_results
  rfl

theorem entry0_wu (c : Dev nD) : V3 m ρ c main_v14 = narrow (F := Ideal) S8x1024x1024 (m ((c.tc : Thread nD τ).loc main_arg3)) := by
  show StableHlo.after hostOps0_2 (W2 m ρ c) (Proc.devRef .tc main_v14) = _
  after_results
  rfl

theorem entry0_wd (c : Dev nD) : V3 m ρ c main_v15 = narrow (F := Ideal) S8x1024x1024 (m ((c.tc : Thread nD τ).loc main_arg4)) := by
  show StableHlo.after hostOps0_2 (W2 m ρ c) (Proc.devRef .tc main_v15) = _
  after_results
  rfl

/-! ## What the second call finds in its operands -/

theorem entry1_h (c : Dev nD) : V7 m ρ c main_v0 = narrow (F := Ideal) S4096x1024 (m ((c.tc : Thread nD τ).loc main_arg0)) := by
  show StableHlo.after hostOps1_2 (W6 m ρ c) (Proc.devRef .tc main_v0) = _
  after_results
  rw [W4_of_ne m ρ c main_v0 (by decide)]
  after_results
  rfl

theorem entry1_moe (c : Dev nD) : V7 m ρ c main_v30
    = combine (F := Ideal) ((dat0 (F := Ideal) (V3 m ρ) c).arrAt 4 cfg0.N) (m ((c.tc : Thread nD τ).loc main_arg1)) (m ((c.tc : Thread nD τ).loc main_arg9)) := by
  show StableHlo.after hostOps1_2 (W6 m ρ c) (Proc.devRef .tc main_v30) = _
  rw [combine_stretch, W6_rows, W6_invOrder, W6_weights]
  rfl

theorem entry1_swg (c : Dev nD) : V7 m ρ c main_v31 = narrow (F := Ideal) S1024x1024 (m ((c.tc : Thread nD τ).loc main_arg5)) := by
  show StableHlo.after hostOps1_2 (W6 m ρ c) (Proc.devRef .tc main_v31) = _
  after_results
  rw [W4_of_ne m ρ c main_arg5 (by decide)]
  after_results
  rfl

theorem entry1_swu (c : Dev nD) : V7 m ρ c main_v32 = narrow (F := Ideal) S1024x1024 (m ((c.tc : Thread nD τ).loc main_arg6)) := by
  show StableHlo.after hostOps1_2 (W6 m ρ c) (Proc.devRef .tc main_v32) = _
  after_results
  rw [W4_of_ne m ρ c main_arg6 (by decide)]
  after_results
  rfl

theorem entry1_swd (c : Dev nD) : V7 m ρ c main_v33 = narrow (F := Ideal) S1024x1024 (m ((c.tc : Thread nD τ).loc main_arg7)) := by
  show StableHlo.after hostOps1_2 (W6 m ρ c) (Proc.devRef .tc main_v33) = _
  after_results
  rw [W4_of_ne m ρ c main_arg7 (by decide)]
  after_results
  rfl

theorem entry1_sgw (c : Dev nD) : V7 m ρ c main_v34 = narrow (F := Ideal) S1024x1 (m ((c.tc : Thread nD τ).loc main_arg8)) := by
  show StableHlo.after hostOps1_2 (W6 m ρ c) (Proc.devRef .tc main_v34) = _
  after_results
  rw [W4_of_ne m ρ c main_arg8 (by decide)]
  after_results
  rfl

end Cert.KernelIdeal.HostGlue

end
-- ==== Proof.Spec.lean ====
/-
  The layer's mathematics, as functions of whole arrays over the extended reals.

  Two pieces.  THE GROUPED EXPERT MAP: for expert `e`, grouped token `c` and output feature `d`,
      y(e, c, d) = ∑_f  ( g(e,c,f) · σ(g(e,c,f)) · u(e,c,f) ) · w_down(e, f, d),
      g(e,c,f) = ∑_j xs(e,c,j) · w_gate(e,j,f),     u(e,c,f) = ∑_j xs(e,c,j) · w_up(e,j,f),
  with σ the logistic function.  THE SHARED EXPERT WITH ITS GATE, added to an already combined routed output `moe`:
      out(t, d) = moe(t, d) + σ( ∑_j h(t,j) · w_s(j, 0) ) · ∑_f ( a(t,f) · σ(a(t,f)) · b(t,f) ) · sw_down(f, d),
      a(t,f) = ∑_j h(t,j) · sw_gate(j,f),     b(t,f) = ∑_j h(t,j) · sw_up(j,f).
  Every sum is a finite sum in the commutative monoid of extended reals under addition, so no order of summation and no
  tiling of the index ranges changes it; nothing here needs the entries to be finite.
-/
import Idealize.ShloMosaic.PureOps.Ideal
import Idealize.ShloMosaic.Lib.ValueIdx

noncomputable section

open scoped BigOperators

namespace MoeSpec

open Idealize.ShloMosaic Idealize.ShloMosaic.ValueIdx

/-- The gated unit `silu(g) · u = (g · σ(g)) · u`. -/
def gated (g u : EReal) : EReal := (g * Ideal.logistic g) * u

/-- The logistic function is the quotient `1 / (1 + e^(-x))` on every extended real. -/
theorem logistic_quotient (x : EReal) : Ideal.div 1 (1 + Ideal.exp (-x)) = Ideal.logistic x := rfl

/-- The grouped expert map at expert `e`, grouped token `c`, output feature `d`. -/
def expertAt (xs wg wu wd : (⟨3, ![8, 1024, 1024]⟩ : Shape).Idx → EReal) (e : Fin 8) (c d : Fin 1024) : EReal :=
  ∑ f : Fin 1024, gated (∑ j : Fin 1024, xs (ix3 e c j) * wg (ix3 e j f)) (∑ j : Fin 1024, xs (ix3 e c j) * wu (ix3 e j f))
    * wd (ix3 e f d)

/-- The grouped expert map as one array. -/
def expertMLP (xs wg wu wd : (⟨3, ![8, 1024, 1024]⟩ : Shape).Idx → EReal) : (⟨3, ![8, 1024, 1024]⟩ : Shape).Idx → EReal :=
  fun i => expertAt xs wg wu wd (i 0) (i 1) (i 2)

theorem expertMLP_apply (xs wg wu wd : (⟨3, ![8, 1024, 1024]⟩ : Shape).Idx → EReal) (e : Fin 8) (c d : Fin 1024) :
    expertMLP xs wg wu wd (ix3 e c d) = expertAt xs wg wu wd e c d := rfl

/-- The shared expert with its gate, added to the routed output, at token `t` and feature `d`. -/
def sharedAt (h moe : (⟨2, ![4096, 1024]⟩ : Shape).Idx → EReal) (swg swu swd : (⟨2, ![1024, 1024]⟩ : Shape).Idx → EReal)
    (sgw : (⟨2, ![1024, 1]⟩ : Shape).Idx → EReal) (t : Fin 4096) (d : Fin 1024) : EReal :=
  moe (ix2 t d) + Ideal.logistic (∑ j : Fin 1024, h (ix2 t j) * sgw (ix2 j (0 : Fin 1)))
    * ∑ f : Fin 1024, gated (∑ j : Fin 1024, h (ix2 t j) * swg (ix2 j f)) (∑ j : Fin 1024, h (ix2 t j) * swu (ix2 j f))
        * swd (ix2 f d)

/-- The same as one array. -/
def sharedOut (h moe : (⟨2, ![4096, 1024]⟩ : Shape).Idx → EReal) (swg swu swd : (⟨2, ![1024, 1024]⟩ : Shape).Idx → EReal)
    (sgw : (⟨2, ![1024, 1]⟩ : Shape).Idx → EReal) : (⟨2, ![4096, 1024]⟩ : Shape).Idx → EReal :=
  fun i => sharedAt h moe swg swu swd sgw (i 0) (i 1)

theorem sharedOut_apply (h moe : (⟨2, ![4096, 1024]⟩ : Shape).Idx → EReal) (swg swu swd : (⟨2, ![1024, 1024]⟩ : Shape).Idx → EReal)
    (sgw : (⟨2, ![1024, 1]⟩ : Shape).Idx → EReal) (t : Fin 4096) (d : Fin 1024) :
    sharedOut h moe swg swu swd sgw (ix2 t d) = sharedAt h moe swg swu swd sgw t d := rfl

end MoeSpec

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.Region0.lean ====
/-
  The first pipelined call, read as one function of its four operand arrays.

  The call walks a grid of 8 experts by 2 token tiles.  At point (e, ci) it stages rows 512·ci … 512·ci + 511 of expert e's
  grouped activations and all of expert e's three weight matrices, computes for that tile the gated two-layer map
  (two products, the gate, a third product) and writes the 512 by 1024 result tile back.  The sixteen tiles partition the
  8 by 1024 by 1024 result, and every entry of a tile depends only on its own row of activations and on expert e's
  weights, so the result array is the grouped expert map of the whole operand arrays.
-/
import proofs.«156974_j62388694942421_1_alg».proof.Proof.Gen.KernelIdeal.Frame
import proofs.«156974_j62388694942421_1_alg».proof.Proof.Spec
import proofs.«156974_j62388694942421_1_alg».proof.Proof.LibPlainDot
import Idealize.ShloMosaic.Lib.Pipeline.Value
import Idealize.ShloMosaic.Lib.ValueLayout

set_option maxRecDepth 16384

noncomputable section

open scoped BigOperators

namespace Cert.KernelIdeal.ExpertRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One tile of the gated two-layer map, entry by entry -/

/-- Every whole-block access starts at the three zero offsets. -/
private theorem zero_offsets : (![0, 0, 0] : Fin 3 → Nat) = fun _ => 0 := funext fun a => by fin_cases a <;> rfl

/-- The three products of the body are plain 512 by 1024 times 1024 by 1024 matrix products. -/
private theorem plain_product : PlainDot.IsPlain dot_S512x1024_S1024x1024_S512x1024_1_0_0_1_n_n := ⟨rfl, rfl, rfl, rfl, rfl, rfl⟩

/-- The logistic function is applied entry by entry. -/
private theorem logistic_apply {s : Shape} {φ : FTy} (v : FVec Ideal s φ) (i : s.Idx) : logistic v i = Ideal.logistic (v i) := rfl

/-- THE TILE at row `r`, feature `d`: the gated sum over the hidden features of the tile's own row of activations
    against the three weight matrices. The unit leading axis is dropped before each product and put back after the
    last; rounding to the narrow format is the identity on the extended reals. -/
private theorem tile_apply (x0 : Vec Ideal S1x512x1024 .bf16) (x1 x2 x3 : Vec Ideal S1x1024x1024 .bf16) (r : Fin 512) (d : Fin 1024) :
    k0_pay1 x0 x1 x2 x3 (ix3 (0 : Fin 1) r d)
      = ∑ f : Fin 1024, MoeSpec.gated (∑ j : Fin 1024, x0 (ix3 (0 : Fin 1) r j) * x1 (ix3 (0 : Fin 1) j f))
          (∑ j : Fin 1024, x0 (ix3 (0 : Fin 1) r j) * x2 (ix3 (0 : Fin 1) j f)) * x3 (ix3 (0 : Fin 1) f d) := by
  unfold k0_pay1
  rw [shapeCast_ab_1ab_apply, PlainDot.matmul_zero_apply plain_product]
  refine Finset.sum_congr rfl fun f _ => ?_
  rw [truncf_apply, mulf_apply, mulf_apply, PlainDot.matmul_zero_apply plain_product, PlainDot.matmul_zero_apply plain_product,
    shapeCast_1ab_ab_apply, logistic_apply, PlainDot.matmul_zero_apply plain_product]
  simp only [shapeCast_1ab_ab_apply]
  rfl

/-! ## Where each block sits in its array -/

/-- The printed index maps over the sixteen grid points: the activations' block moves with the result's block on the
    expert and token-tile axes; each weight block moves with the result's on the expert axis only and is otherwise
    the whole matrix; the result's block index is (expert, token tile, 0) with expert below 8 and tile below 2. -/
private theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 1 ∧ win0_4.index t (2 : Fin 3) = 0 :=
  (by decide +kernel : ∀ t : Fin grid0.N, _)

/-- Every (expert, token tile) pair is some grid point's result block. -/
private theorem index_onto : ∀ (e : Fin 8) (ci : Fin 2), ∃ t : Fin cfg0.N, win0_4.index t = ![e.val, ci.val, 0] :=
  (by decide +kernel : ∀ (e : Fin 8) (ci : Fin 2), ∃ t : Fin grid0.N, win0_4.index t = ![e.val, ci.val, 0])

variable (V : (c : Dev nD) → (b : Ref sig .tc) → Buf (Elt Ideal) ((c : Thread nD τ).loc b))

/-- The activations' block at a point holds, at row `r`, row 512·(token tile) + r of the point's expert. -/
private theorem acts_block_apply (c : Dev nD) (t : Fin cfg0.N) (r : Fin 512) (j : Fin 1024) (e : Fin 8) (row : Fin 1024)
    (he : e.val = win0_4.index t (0 : Fin 3)) (hrow : row.val = win0_4.index t (1 : Fin 3) * 512 + r.val) :
    (iblk0 V c 0 t : Vec Ideal S1x512x1024 .bf16) (ix3 (0 : Fin 1) r j) = (V c main_v12 : S8x1024x1024.Idx → EReal) (ix3 e row j) := by
  obtain ⟨a0, a1, a2, -⟩ := index_facts t
  unfold iblk0
  rw [View.read_apply]
  show V c main_v12 _ = V c main_v12 _
  congr 1
  funext a
  apply Fin.ext
  match a with
  | ⟨0, _⟩ => show win0_0.index t (0 : Fin 3) * 1 + 1 * (0 : Fin 1).val = e.val; rw [a0, he]; simp
  | ⟨1, _⟩ => show win0_0.index t (1 : Fin 3) * 512 + 1 * r.val = row.val; omega
  | ⟨2, _⟩ => show win0_0.index t (2 : Fin 3) * 1024 + 1 * j.val = j.val; omega

/-- The first weight block at a point is the whole gate matrix of the point's expert. -/
private theorem gate_weights_block_apply (c : Dev nD) (t : Fin cfg0.N) (j f : Fin 1024) (e : Fin 8)
    (he : e.val = win0_4.index t (0 : Fin 3)) :
    (iblk0 V c 1 t : Vec Ideal S1x1024x1024 .bf16) (ix3 (0 : Fin 1) j f) = (V c main_v13 : S8x1024x1024.Idx → EReal) (ix3 e j f) := by
  obtain ⟨-, -, -, a0, a1, a2, b0, b1, b2, c0, c1, c2, -⟩ := index_facts t
  unfold iblk0
  rw [View.read_apply]
  show V c main_v13 _ = V c main_v13 _
  congr 1
  funext a
  apply Fin.ext
  match a with
  | ⟨0, _⟩ => show win0_1.index t (0 : Fin 3) * 1 + 1 * (0 : Fin 1).val = e.val; rw [he]; simp; omega
  | ⟨1, _⟩ => show win0_1.index t (1 : Fin 3) * 1024 + 1 * j.val = j.val; omega
  | ⟨2, _⟩ => show win0_1.index t (2 : Fin 3) * 1024 + 1 * f.val = f.val; omega

/-- The second weight block at a point is the whole up matrix of the point's expert. -/
private theorem up_weights_block_apply (c : Dev nD) (t : Fin cfg0.N) (j f : Fin 1024) (e : Fin 8)
    (he : e.val = win0_4.index t (0 : Fin 3)) :
    (iblk0 V c 2 t : Vec Ideal S1x1024x1024 .bf16) (ix3 (0 : Fin 1) j f) = (V c main_v14 : S8x1024x1024.Idx → EReal) (ix3 e j f) := by
  obtain ⟨-, -, -, a0, a1, a2, b0, b1, b2, c0, c1, c2, -⟩ := index_facts t
  unfold iblk0
  rw [View.read_apply]
  show V c main_v14 _ = V c main_v14 _
  congr 1
  funext a
  apply Fin.ext
  match a with
  | ⟨0, _⟩ => show win0_2.index t (0 : Fin 3) * 1 + 1 * (0 : Fin 1).val = e.val; rw [he]; simp; omega
  | ⟨1, _⟩ => show win0_2.index t (1 : Fin 3) * 1024 + 1 * j.val = j.val; omega
  | ⟨2, _⟩ => show win0_2.index t (2 : Fin 3) * 1024 + 1 * f.val = f.val; omega

/-- The third weight block at a point is the whole down matrix of the point's expert. -/
private theorem down_weights_block_apply (c : Dev nD) (t : Fin cfg0.N) (j f : Fin 1024) (e : Fin 8)
    (he : e.val = win0_4.index t (0 : Fin 3)) :
    (iblk0 V c 3 t : Vec Ideal S1x1024x1024 .bf16) (ix3 (0 : Fin 1) j f) = (V c main_v15 : S8x1024x1024.Idx → EReal) (ix3 e j f) := by
  obtain ⟨-, -, -, a0, a1, a2, b0, b1, b2, c0, c1, c2, -⟩ := index_facts t
  unfold iblk0
  rw [View.read_apply]
  show V c main_v15 _ = V c main_v15 _
  congr 1
  funext a
  apply Fin.ext
  match a with
  | ⟨0, _⟩ => show win0_3.index t (0 : Fin 3) * 1 + 1 * (0 : Fin 1).val = e.val; rw [he]; simp; omega
  | ⟨1, _⟩ => show win0_3.index t (1 : Fin 3) * 1024 + 1 * j.val = j.val; omega
  | ⟨2, _⟩ => show win0_3.index t (2 : Fin 3) * 1024 + 1 * f.val = f.val; omega

/-! ## What a point writes back, and the whole array -/

/-- WHAT POINT `t` WRITES BACK is block `t` of the grouped expert map of the four operand arrays: entry (r, d) of the
    tile is the gated sum of row 512·(token tile) + r of the point's expert against that expert's weights, which is
    the map's entry at (expert, 512·(token tile) + r, d). -/
private theorem tile_flushed (c : Dev nD) (t : Fin cfg0.N) :
    (dat0 (F := Ideal) V c).flushed 4 t
      = ((cfg0.win 4).blk t).view.read (Elt Ideal)
          (MoeSpec.expertMLP (V c main_v12) (V c main_v13) (V c main_v14) (V c main_v15)) := by
  show (cfg0.win 4).cut (grid0.coords t) ((dat0 V c).after 4 t) = _
  rw [after0_4]
  unfold out0_4
  rw [View.canon_unit_zero zero_offsets]
  simp only [View.ld_unit_zero (S := S1x512x1024) zero_offsets, View.ld_unit_zero (S := S1x1024x1024) zero_offsets]
  obtain ⟨-, -, -, -, -, -, -, -, -, -, -, -, b0, b1, b2⟩ := index_facts t
  funext y
  obtain ⟨u, r, d, rfl⟩ : ∃ (u : Fin 1) (r : Fin 512) (d : Fin 1024), y = ix3 u r d := ⟨y 0, y 1, y 2, eq_ix3 y⟩
  obtain rfl : u = 0 := Subsingleton.elim _ _
  show k0_pay1 (iblk0 V c 0 t) (iblk0 V c 1 t) (iblk0 V c 2 t) (iblk0 V c 3 t) (ix3 (0 : Fin 1) r d)
    = MoeSpec.expertMLP (V c main_v12) (V c main_v13) (V c main_v14) (V c main_v15) (((cfg0.win 4).blk t).view.emb (ix3 (0 : Fin 1) r d))
  have hemb : ((cfg0.win 4).blk t).view.emb (ix3 (0 : Fin 1) r d)
      = ix3 (⟨win0_4.index t (0 : Fin 3), by omega⟩ : Fin 8) (⟨win0_4.index t (1 : Fin 3) * 512 + r.val, by omega⟩ : Fin 1024) d := by
    funext a
    apply Fin.ext
    match a with
    | ⟨0, _⟩ => show win0_4.index t (0 : Fin 3) * 1 + 1 * (0 : Fin 1).val = win0_4.index t (0 : Fin 3); simp
    | ⟨1, _⟩ => show win0_4.index t (1 : Fin 3) * 512 + 1 * r.val = win0_4.index t (1 : Fin 3) * 512 + r.val; omega
    | ⟨2, _⟩ => show win0_4.index t (2 : Fin 3) * 1024 + 1 * d.val = d.val; omega
  rw [hemb, MoeSpec.expertMLP_apply]
  unfold MoeSpec.expertAt
  refine (tile_apply (iblk0 V c 0 t) (iblk0 V c 1 t) (iblk0 V c 2 t) (iblk0 V c 3 t) r d).trans ?_
  have e0 := fun j => acts_block_apply V c t r j ⟨win0_4.index t (0 : Fin 3), by omega⟩ ⟨win0_4.index t (1 : Fin 3) * 512 + r.val, by omega⟩ rfl rfl
  have e1 := fun j f => gate_weights_block_apply V c t j f ⟨win0_4.index t (0 : Fin 3), by omega⟩ rfl
  have e2 := fun j f => up_weights_block_apply V c t j f ⟨win0_4.index t (0 : Fin 3), by omega⟩ rfl
  have e3 := fun j f => down_weights_block_apply V c t j f ⟨win0_4.index t (0 : Fin 3), by omega⟩ rfl
  simp only [e0, e1, e2, e3]

/-- An index of the result array is in point `t`'s block iff each coordinate is in the block's range on its axis. -/
private theorem mem_tile (t : Fin cfg0.N) (i : S8x1024x1024.Idx) :
    i ∈ ((cfg0.win 4).blk t).view.set
      ↔ ∀ a : Fin 3, win0_4.index t a * S1x512x1024.size a ≤ (i a).val ∧ (i a).val < win0_4.index t a * S1x512x1024.size a + S1x512x1024.size a := by
  show i ∈ ((View.whole main_v16).slice (win0_4.rect t)).set ↔ _
  rw [View.set_slice_whole, Rect.mem_set_unit]
  exact Iff.rfl

/-- The sixteen tiles cover the result: entry (e, row, d) lies in the block of the point (e, row / 512). -/
private theorem tiles_cover (i : S8x1024x1024.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 1024 := (i 2).isLt
  obtain ⟨t, ht⟩ := index_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- THE ARRAY the first call leaves in its result operand: the grouped expert map of the arrays it found in its four
    input operands. -/
theorem arr (c : Dev nD) :
    (dat0 (F := Ideal) V c).arrAt 4 cfg0.N
      = MoeSpec.expertMLP (V c main_v12) (V c main_v13) (V c main_v14) (V c main_v15) := by
  exact (dat0 V c).arrAt_eq_of_cover 4 _ (fun t _ => tile_flushed V c t) tiles_cover

end Cert.KernelIdeal.ExpertRegion

end
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.Region1.lean ====
/-
  The second pipelined call, read as one function of its six operand arrays.

  The call walks 8 token tiles.  At tile i it stages rows 512·i … 512·i + 511 of the hidden states and of the routed
  output, and the four shared weight arrays whole; it computes the shared gated two-layer map of the tile, the tile's
  scalar gate (a product with a one-column matrix, then the logistic function) spread along each row, and writes back
  routed + gate · shared.  The eight tiles partition the 4096 by 1024 result and every entry depends only on its own row,
  so the result array is the shared-expert map of the whole operand arrays.
-/
import proofs.«156974_j62388694942421_1_alg».proof.Proof.Gen.KernelIdeal.Frame
import proofs.«156974_j62388694942421_1_alg».proof.Proof.Spec
import proofs.«156974_j62388694942421_1_alg».proof.Proof.LibPlainDot
import proofs.«156974_j62388694942421_1_alg».proof.Proof.LibKeepdims
import Idealize.ShloMosaic.Lib.Pipeline.Value
import Idealize.ShloMosaic.Lib.ValueLayout

set_option maxRecDepth 16384

noncomputable section

open scoped BigOperators

namespace Cert.KernelIdeal.SharedRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's value at an entry -/

/-- The two spellings of the zero offsets of a whole-buffer access. -/
private theorem zero_offsets : (![0, 0] : Fin 2 → Nat) = fun _ => 0 :=
  funext fun a => by match a with | ⟨0, _⟩ => rfl | ⟨1, _⟩ => rfl

/-- The tile's three square products are plain matrix products: rows of the left operand against columns of the right. -/
private theorem plain_square : PlainDot.IsPlain (M := 512) (K := 1024) (N := 1024) dot_S512x1024_S1024x1024_S512x1024_1_0_0_1_n_n :=
  ⟨rfl, rfl, rfl, rfl, rfl, rfl⟩

/-- So is the gate's product with the one-column matrix. -/
private theorem plain_column : PlainDot.IsPlain (M := 512) (K := 1024) (N := 1) dot_S512x1024_S1024x1_S512x1_1_0_0_1_n_n :=
  ⟨rfl, rfl, rfl, rfl, rfl, rfl⟩

/-- The logistic function of an array, read at an index. -/
private theorem logistic_at {s : Shape} {φ : FTy} (v : FVec Ideal s φ) (i : s.Idx) : logistic v i = Ideal.logistic (v i) := rfl

/-- THE BODY AT AN ENTRY: row r, feature d of what the body stores is the routed entry plus the row's gate times the
    row's shared gated two-layer map at d; it reads only row r of the two token blocks. -/
private theorem payload_apply (x0 : Vec Ideal S512x1024 .bf16) (x1 : Vec Ideal S512x1024 .f32) (x2 x3 x4 : Vec Ideal S1024x1024 .bf16)
    (x5 : Vec Ideal S1024x1 .bf16) (r : Fin 512) (d : Fin 1024) :
    k1_pay1 x0 x1 x2 x3 x4 x5 (ix2 r d)
      = x1 (ix2 r d) + Ideal.logistic (∑ j : Fin 1024, x0 (ix2 r j) * x5 (ix2 j (0 : Fin 1)))
          * ∑ f : Fin 1024, MoeSpec.gated (∑ j : Fin 1024, x0 (ix2 r j) * x2 (ix2 j f)) (∑ j : Fin 1024, x0 (ix2 r j) * x3 (ix2 j f))
              * x4 (ix2 f d) := by
  unfold k1_pay1
  simp only [shapeCast_self]
  rw [addf_apply, mulf_apply, KeepdimsLayout.broadcastTo_a1_ab_apply, logistic_at, PlainDot.matmul_zero_apply plain_column,
    PlainDot.matmul_zero_apply plain_square]
  simp only [truncf_apply, mulf_apply, logistic_at, PlainDot.matmul_zero_apply plain_square]
  rfl

variable (V : (c : Dev nD) → (b : Ref sig .tc) → Buf (Elt Ideal) ((c : Thread nD τ).loc b))

/-! ## The index maps over the grid -/

/-- The printed index maps, decided over the 8 tiles: the two token windows and the result window sit at tile (t, 0); the
    four weight windows at (0, 0). -/
private theorem index_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

private theorem tiles : cfg1.N = 8 := N_1

/-- Row r of tile t is row 512·t + r of the arrays. -/
private def row (t : Fin cfg1.N) (r : Fin 512) : Fin 4096 := ⟨t.val * 512 + r.val, by have h := t.isLt; have h8 : cfg1.N = 8 := tiles; omega⟩

/-! ## Each window's block, read at an entry -/

/-- The hidden-state tile is rows 512·t … of the hidden states. -/
private theorem hidden_block (c : Dev nD) (t : Fin cfg1.N) (r : Fin 512) (j : Fin 1024) :
    (iblk1 (F := Ideal) V c 0 t : Vec Ideal S512x1024 .bf16) (ix2 r j) = V c main_v0 (ix2 (row t r) j) := by
  obtain ⟨-, -, e0, e1, -⟩ := index_facts t
  unfold iblk1
  rw [View.read_apply]
  show V c main_v0 _ = V c main_v0 _
  refine congrArg _ ?_
  funext a; apply Fin.ext
  match a with
  | ⟨0, _⟩ => show win1_0.index t (0 : Fin 2) * 512 + 1 * r.val = t.val * 512 + r.val; omega
  | ⟨1, _⟩ => show win1_0.index t (1 : Fin 2) * 1024 + 1 * j.val = j.val; omega

/-- The routed-output tile is the same rows of the routed output. -/
private theorem routed_block (c : Dev nD) (t : Fin cfg1.N) (r : Fin 512) (d : Fin 1024) :
    (iblk1 (F := Ideal) V c 1 t : Vec Ideal S512x1024 .f32) (ix2 r d) = V c main_v30 (ix2 (row t r) d) := by
  obtain ⟨-, -, -, -, e0, e1, -⟩ := index_facts t
  unfold iblk1
  rw [View.read_apply]
  show V c main_v30 _ = V c main_v30 _
  refine congrArg _ ?_
  funext a; apply Fin.ext
  match a with
  | ⟨0, _⟩ => show win1_1.index t (0 : Fin 2) * 512 + 1 * r.val = t.val * 512 + r.val; omega
  | ⟨1, _⟩ => show win1_1.index t (1 : Fin 2) * 1024 + 1 * d.val = d.val; omega

/-- The three square weight windows hold their arrays whole. -/
private theorem gate_weight_block (c : Dev nD) (t : Fin cfg1.N) (j f : Fin 1024) :
    (iblk1 (F := Ideal) V c 2 t : Vec Ideal S1024x1024 .bf16) (ix2 j f) = V c main_v31 (ix2 j f) := by
  obtain ⟨-, -, -, -, -, -, e0, e1, -⟩ := index_facts t
  unfold iblk1
  rw [View.read_apply]
  show V c main_v31 _ = V c main_v31 _
  refine congrArg _ ?_
  funext a; apply Fin.ext
  match a with
  | ⟨0, _⟩ => show win1_2.index t (0 : Fin 2) * 1024 + 1 * j.val = j.val; omega
  | ⟨1, _⟩ => show win1_2.index t (1 : Fin 2) * 1024 + 1 * f.val = f.val; omega

private theorem up_weight_block (c : Dev nD) (t : Fin cfg1.N) (j f : Fin 1024) :
    (iblk1 (F := Ideal) V c 3 t : Vec Ideal S1024x1024 .bf16) (ix2 j f) = V c main_v32 (ix2 j f) := by
  obtain ⟨-, -, -, -, -, -, -, -, e0, e1, -⟩ := index_facts t
  unfold iblk1
  rw [View.read_apply]
  show V c main_v32 _ = V c main_v32 _
  refine congrArg _ ?_
  funext a; apply Fin.ext
  match a with
  | ⟨0, _⟩ => show win1_3.index t (0 : Fin 2) * 1024 + 1 * j.val = j.val; omega
  | ⟨1, _⟩ => show win1_3.index t (1 : Fin 2) * 1024 + 1 * f.val = f.val; omega

private theorem down_weight_block (c : Dev nD) (t : Fin cfg1.N) (f d : Fin 1024) :
    (iblk1 (F := Ideal) V c 4 t : Vec Ideal S1024x1024 .bf16) (ix2 f d) = V c main_v33 (ix2 f d) := by
  obtain ⟨-, -, -, -, -, -, -, -, -, -, e0, e1, -⟩ := index_facts t
  unfold iblk1
  rw [View.read_apply]
  show V c main_v33 _ = V c main_v33 _
  refine congrArg _ ?_
  funext a; apply Fin.ext
  match a with
  | ⟨0, _⟩ => show win1_4.index t (0 : Fin 2) * 1024 + 1 * f.val = f.val; omega
  | ⟨1, _⟩ => show win1_4.index t (1 : Fin 2) * 1024 + 1 * d.val = d.val; omega

/-- The one-column gate weight window holds its array whole. -/
private theorem gate_column_block (c : Dev nD) (t : Fin cfg1.N) (j : Fin 1024) (u : Fin 1) :
    (iblk1 (F := Ideal) V c 5 t : Vec Ideal S1024x1 .bf16) (ix2 j u) = V c main_v34 (ix2 j u) := by
  obtain ⟨-, -, -, -, -, -, -, -, -, -, -, -, e0, e1⟩ := index_facts t
  unfold iblk1
  rw [View.read_apply]
  show V c main_v34 _ = V c main_v34 _
  refine congrArg _ ?_
  funext a; apply Fin.ext
  match a with
  | ⟨0, _⟩ => show win1_5.index t (0 : Fin 2) * 1024 + 1 * j.val = j.val; omega
  | ⟨1, _⟩ => show win1_5.index t (1 : Fin 2) * 1 + 1 * u.val = u.val; omega

/-- Entry (r, d) of the result tile is entry (512·t + r, d) of the result array. -/
private theorem result_block_emb (t : Fin cfg1.N) (r : Fin 512) (d : Fin 1024) :
    ((cfg1.win 6).blk t).view.emb (ix2 r d) = (ix2 (row t r) d : S4096x1024.Idx) := by
  obtain ⟨e0, e1, -⟩ := index_facts t
  funext a; apply Fin.ext
  match a with
  | ⟨0, _⟩ => show win1_6.index t (0 : Fin 2) * 512 + 1 * r.val = t.val * 512 + r.val; omega
  | ⟨1, _⟩ => show win1_6.index t (1 : Fin 2) * 1024 + 1 * d.val = d.val; omega

/-- So tile t of an array, read at (r, d), is the array at (512·t + r, d). -/
private theorem result_block (G : S4096x1024.Idx → EReal) (t : Fin cfg1.N) (r : Fin 512) (d : Fin 1024) :
    ((cfg1.win 6).blk t).view.read (Elt Ideal) G (ix2 r d) = G (ix2 (row t r) d) := by
  rw [View.read_apply]
  show G _ = G _
  rw [result_block_emb]

/-! ## What each tile writes back -/

/-- WHAT TILE t WRITES BACK is tile t of the shared-expert map of the whole operand arrays. -/
private theorem flushed_eq (c : Dev nD) (t : Fin cfg1.N) :
    (dat1 (F := Ideal) V c).flushed 6 t
      = ((cfg1.win 6).blk t).view.read (Elt Ideal)
          (MoeSpec.sharedOut (V c main_v0) (V c main_v30) (V c main_v31) (V c main_v32) (V c main_v33) (V c main_v34)) := by
  show (cfg1.win 6).cut (grid1.coords t) ((dat1 V c).after 6 t) = _
  rw [after1_6]
  unfold out1_6
  rw [View.canon_unit_zero zero_offsets]
  simp only [View.ld_unit_zero (S := S512x1024) zero_offsets, View.ld_unit_zero (S := S1024x1024) zero_offsets,
    View.ld_unit_zero (S := S1024x1) zero_offsets]
  funext j
  obtain ⟨r, d, rfl⟩ : ∃ (r : Fin 512) (d : Fin 1024), j = ix2 r d := ⟨j 0, j 1, eq_ix2 j⟩
  refine Eq.trans ?_ (result_block (MoeSpec.sharedOut (V c main_v0) (V c main_v30) (V c main_v31) (V c main_v32) (V c main_v33) (V c main_v34)) t r d).symm
  rw [MoeSpec.sharedOut_apply]
  unfold MoeSpec.sharedAt
  refine (payload_apply _ _ _ _ _ _ r d).trans ?_
  simp only [hidden_block V c t, routed_block V c t, gate_weight_block V c t, up_weight_block V c t, down_weight_block V c t,
    gate_column_block V c t]

/-! ## The tiles cover the result -/

/-- An index of the result array is in tile t's block iff each coordinate is in the block's range on its axis. -/
private theorem mem_result_block (t : Fin cfg1.N) (i : S4096x1024.Idx) :
    i ∈ ((cfg1.win 6).blk t).view.set
      ↔ ∀ a : Fin 2, win1_6.index t a * S512x1024.size a ≤ (i a).val ∧ (i a).val < win1_6.index t a * S512x1024.size a + S512x1024.size a := by
  show i ∈ ((View.whole main_v35).slice (win1_6.rect t)).set ↔ _
  rw [View.set_slice_whole, Rect.mem_set_unit]
  exact Iff.rfl

/-- Every entry of the result is written back by the tile holding its row: row T lies in tile T / 512. -/
private theorem cover (i : S4096x1024.Idx) :
    ∃ t : Fin cfg1.N, (cfg1.win 6).flush t = true ∧ i ∈ ((cfg1.win 6).blk t).view.set := by
  have hi0 : (i 0).val < 4096 := (i 0).isLt
  have hi1 : (i 1).val < 1024 := (i 1).isLt
  have h8 : cfg1.N = 8 := tiles
  refine ⟨⟨(i 0).val / 512, by omega⟩, flush1_6 _, ?_⟩
  rw [mem_result_block]
  obtain ⟨e0, e1, -⟩ := index_facts ⟨(i 0).val / 512, by omega⟩
  intro a
  match a with
  | ⟨0, _⟩ =>
    show win1_6.index ⟨(i 0).val / 512, _⟩ (0 : Fin 2) * 512 ≤ (i 0).val ∧ (i 0).val < win1_6.index ⟨(i 0).val / 512, _⟩ (0 : Fin 2) * 512 + 512
    rw [e0]; show (i 0).val / 512 * 512 ≤ (i 0).val ∧ (i 0).val < (i 0).val / 512 * 512 + 512; omega
  | ⟨1, _⟩ =>
    show win1_6.index ⟨(i 0).val / 512, _⟩ (1 : Fin 2) * 1024 ≤ (i 1).val ∧ (i 1).val < win1_6.index ⟨(i 0).val / 512, _⟩ (1 : Fin 2) * 1024 + 1024
    rw [e1]; omega

/-- THE ARRAY the second call leaves in its result operand: the shared-expert map, added to the routed output, of the
    arrays it found in its six input operands. -/
theorem arr (c : Dev nD) :
    (dat1 (F := Ideal) V c).arrAt 6 cfg1.N
      = MoeSpec.sharedOut (V c main_v0) (V c main_v30) (V c main_v31) (V c main_v32) (V c main_v33) (V c main_v34) :=
  (dat1 (F := Ideal) V c).arrAt_eq_of_cover 6 _ (fun t _ => flushed_eq V c t) cover

end Cert.KernelIdeal.SharedRegion

end
-- ==== Proof.RefStages.lean ====
/-
  The reference program's stages, read against the layer's mathematics.

  Its grouped expert stage is three batched contractions (expert by expert) around the gate, whose logistic function it
  spells as the quotient 1 / (1 + e^(-x)): entry by entry that is the grouped expert map of the dispatched activations.
  Its last stage adds to the combined routed output the shared expert's map times the token's gate, which is the
  shared-expert map with the routed output as its additive term.  The dispatch and combine stages in between (sorts,
  gathers, the weighted sum over a token's two slots) are carried as they stand.
-/
import proofs.«156974_j62388694942421_1_alg».proof.Proof.Gen.ReferenceIdeal.Read
import proofs.«156974_j62388694942421_1_alg».proof.Proof.Spec
import proofs.«156974_j62388694942421_1_alg».proof.Proof.LibPlainDot
import Idealize.ShloMosaic.Lib.ValueIdx
import Idealize.ShloMosaic.PureOps.Ideal.Laws
import Idealize.ShloMosaic.Lib.IdealHost

set_option maxRecDepth 16384

noncomputable section

open scoped BigOperators

namespace Cert.ReferenceIdeal.Stages

open Cert.ReferenceIdeal Cert.ReferenceIdeal.Gen Cert.ReferenceIdeal.Read
open Idealize.ShloMosaic Idealize.ShloMosaic.TcCoe Idealize.ShloMosaic.ValueIdx Idealize.SL.Sem

/-! ## Scalar laws

The reference spells the logistic function as the quotient 1 / (1 + e^(-x)) with the literal 1.0 written as its f32
word; over the extended reals that word is one and the quotient is the logistic function by definition. -/

/-- The spelled quotient `1 / (1 + e^(-g))`, with both ones given as the f32 word of 1.0, is the logistic function. -/
private theorem spelled_logistic (g : Ideal .f32) :
    FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) g)))
      = Ideal.logistic g := by
  rw [Ideal.ofBits_def, Ideal.ofBits_one_f32]
  rfl

/-- The two products `(g · σ(g)) · u` are the gated unit. -/
private theorem gated_eq (g u : Ideal .f32) :
    FloatOps.mulf (F := Ideal) (φ := .f32) (FloatOps.mulf (F := Ideal) (φ := .f32) g (Ideal.logistic g)) u
      = MoeSpec.gated g u := rfl

/-- The last two operations: the routed term plus the gate times the shared map. -/
private theorem add_mul_eq (m s y : Ideal .f32) :
    FloatOps.addf (F := Ideal) (φ := .f32) m (FloatOps.mulf (F := Ideal) (φ := .f32) s y) = m + s * y := rfl

/-! ## The grouped expert stage, entry by entry

Each of the three batched contractions reads, at entry (e, c, f), row c of expert e's left block against column f of
expert e's right block. -/

private theorem lidx12 (e : Fin 8) (c d k : Fin 1024) : lidx_main_v12 (ix3 e c d) k = ix3 e c k :=
  funext fun a => Fin.ext (by match a with | ⟨0, _⟩ => rfl | ⟨1, _⟩ => rfl | ⟨2, _⟩ => rfl)
private theorem ridx12 (e : Fin 8) (c d k : Fin 1024) : ridx_main_v12 (ix3 e c d) k = ix3 e k d :=
  funext fun a => Fin.ext (by match a with | ⟨0, _⟩ => rfl | ⟨1, _⟩ => rfl | ⟨2, _⟩ => rfl)
private theorem lidx20 (e : Fin 8) (c d k : Fin 1024) : lidx_main_v20 (ix3 e c d) k = ix3 e c k :=
  funext fun a => Fin.ext (by match a with | ⟨0, _⟩ => rfl | ⟨1, _⟩ => rfl | ⟨2, _⟩ => rfl)
private theorem ridx20 (e : Fin 8) (c d k : Fin 1024) : ridx_main_v20 (ix3 e c d) k = ix3 e k d :=
  funext fun a => Fin.ext (by match a with | ⟨0, _⟩ => rfl | ⟨1, _⟩ => rfl | ⟨2, _⟩ => rfl)
private theorem lidx22 (e : Fin 8) (c d k : Fin 1024) : lidx_main_v22 (ix3 e c d) k = ix3 e c k :=
  funext fun a => Fin.ext (by match a with | ⟨0, _⟩ => rfl | ⟨1, _⟩ => rfl | ⟨2, _⟩ => rfl)
private theorem ridx22 (e : Fin 8) (c d k : Fin 1024) : ridx_main_v22 (ix3 e c d) k = ix3 e k d :=
  funext fun a => Fin.ext (by match a with | ⟨0, _⟩ => rfl | ⟨1, _⟩ => rfl | ⟨2, _⟩ => rfl)

/-- The gate contraction at (e, c, f): row c of the dispatched block e against column f of the gate weights. -/
private theorem v12_at (x0 : (⟨S4096x1024, .f32⟩ : BufTy).Contents (Elt Ideal)) (x2 : (⟨S8x1024x1024, .f32⟩ : BufTy).Contents (Elt Ideal))
    (x9 : (⟨S4096x2, .i32⟩ : BufTy).Contents (Elt Ideal)) (e : Fin 8) (c f : Fin 1024) :
    val_main_v12 (F := Ideal) x0 x2 x9 (ix3 e c f)
      = ∑ j : Fin 1024, val_main_v11 (F := Ideal) x0 x9 (ix3 e c j) * x2 (ix3 e j f) := by
  rw [val_main_v12_apply]
  generalize val_main_v11 (F := Ideal) x0 x9 = xs
  refine Finset.sum_congr rfl fun k _ => ?_
  rw [lidx12, ridx12]

/-- The up contraction at (e, c, f): the same row against column f of the up weights. -/
private theorem v20_at (x0 : (⟨S4096x1024, .f32⟩ : BufTy).Contents (Elt Ideal)) (x3 : (⟨S8x1024x1024, .f32⟩ : BufTy).Contents (Elt Ideal))
    (x9 : (⟨S4096x2, .i32⟩ : BufTy).Contents (Elt Ideal)) (e : Fin 8) (c f : Fin 1024) :
    val_main_v20 (F := Ideal) x0 x3 x9 (ix3 e c f)
      = ∑ j : Fin 1024, val_main_v11 (F := Ideal) x0 x9 (ix3 e c j) * x3 (ix3 e j f) := by
  rw [val_main_v20_apply]
  generalize val_main_v11 (F := Ideal) x0 x9 = xs
  refine Finset.sum_congr rfl fun k _ => ?_
  rw [lidx20, ridx20]

/-- The negate, exponential, add-one, divide-one-by chain on the gate contraction is its logistic function. -/
private theorem v18_at (x0 : (⟨S4096x1024, .f32⟩ : BufTy).Contents (Elt Ideal)) (x2 : (⟨S8x1024x1024, .f32⟩ : BufTy).Contents (Elt Ideal))
    (x9 : (⟨S4096x2, .i32⟩ : BufTy).Contents (Elt Ideal)) (i : S8x1024x1024.Idx) :
    val_main_v18 (F := Ideal) x0 x2 x9 i = Ideal.logistic (val_main_v12 (F := Ideal) x0 x2 x9 i) := by
  rw [val_main_v18_apply, val_main_v17_apply, val_main_cst_1_apply, val_main_v16_apply, val_main_v15_apply,
    val_main_cst_apply, val_main_v14_apply, val_main_v13_apply]
  exact spelled_logistic _

/-- The gated unit at (e, c, f). -/
private theorem v21_at (x0 : (⟨S4096x1024, .f32⟩ : BufTy).Contents (Elt Ideal)) (x2 x3 : (⟨S8x1024x1024, .f32⟩ : BufTy).Contents (Elt Ideal))
    (x9 : (⟨S4096x2, .i32⟩ : BufTy).Contents (Elt Ideal)) (e : Fin 8) (c f : Fin 1024) :
    val_main_v21 (F := Ideal) x0 x2 x3 x9 (ix3 e c f)
      = MoeSpec.gated (∑ j : Fin 1024, val_main_v11 (F := Ideal) x0 x9 (ix3 e c j) * x2 (ix3 e j f))
          (∑ j : Fin 1024, val_main_v11 (F := Ideal) x0 x9 (ix3 e c j) * x3 (ix3 e j f)) := by
  rw [val_main_v21_apply, val_main_v19_apply, v18_at, v12_at, v20_at]
  exact gated_eq _ _

/-! ## The shared expert with its gate, entry by entry

Each plain contraction reads, at entry (t, f), row t of the hidden states against column f of its weight array; the
gate's weight array has the single column 0, and the gate is broadcast along a token's row. -/

private theorem lidx37 (t : Fin 4096) (d k : Fin 1024) : lidx_main_v37 (ix2 t d) k = ix2 t k :=
  funext fun a => Fin.ext (by match a with | ⟨0, _⟩ => rfl | ⟨1, _⟩ => rfl)
private theorem ridx37 (t : Fin 4096) (d k : Fin 1024) : ridx_main_v37 (ix2 t d) k = ix2 k d :=
  funext fun a => Fin.ext (by match a with | ⟨0, _⟩ => rfl | ⟨1, _⟩ => rfl)
private theorem lidx45 (t : Fin 4096) (d k : Fin 1024) : lidx_main_v45 (ix2 t d) k = ix2 t k :=
  funext fun a => Fin.ext (by match a with | ⟨0, _⟩ => rfl | ⟨1, _⟩ => rfl)
private theorem ridx45 (t : Fin 4096) (d k : Fin 1024) : ridx_main_v45 (ix2 t d) k = ix2 k d :=
  funext fun a => Fin.ext (by match a with | ⟨0, _⟩ => rfl | ⟨1, _⟩ => rfl)
private theorem lidx47 (t : Fin 4096) (d k : Fin 1024) : lidx_main_v47 (ix2 t d) k = ix2 t k :=
  funext fun a => Fin.ext (by match a with | ⟨0, _⟩ => rfl | ⟨1, _⟩ => rfl)
private theorem ridx47 (t : Fin 4096) (d k : Fin 1024) : ridx_main_v47 (ix2 t d) k = ix2 k d :=
  funext fun a => Fin.ext (by match a with | ⟨0, _⟩ => rfl | ⟨1, _⟩ => rfl)
private theorem lidx48 (t : Fin 4096) (d k : Fin 1024) : lidx_main_v48 (idx_main_v55 (ix2 t d)) k = ix2 t k :=
  funext fun a => Fin.ext (by match a with | ⟨0, _⟩ => rfl | ⟨1, _⟩ => rfl)
private theorem ridx48 (t : Fin 4096) (d k : Fin 1024) :
    ridx_main_v48 (idx_main_v55 (ix2 t d)) k = ix2 k (0 : Fin 1) :=
  funext fun a => Fin.ext (by match a with | ⟨0, _⟩ => rfl | ⟨1, _⟩ => rfl)

/-- The shared gate contraction at (t, f). -/
private theorem v37_at (x0 : (⟨S4096x1024, .f32⟩ : BufTy).Contents (Elt Ideal)) (x5 : (⟨S1024x1024, .f32⟩ : BufTy).Contents (Elt Ideal))
    (t : Fin 4096) (f : Fin 1024) :
    val_main_v37 (F := Ideal) x0 x5 (ix2 t f) = ∑ j : Fin 1024, x0 (ix2 t j) * x5 (ix2 j f) := by
  rw [val_main_v37_apply]
  refine Finset.sum_congr rfl fun k _ => ?_
  rw [lidx37, ridx37]

/-- The shared up contraction at (t, f). -/
private theorem v45_at (x0 : (⟨S4096x1024, .f32⟩ : BufTy).Contents (Elt Ideal)) (x6 : (⟨S1024x1024, .f32⟩ : BufTy).Contents (Elt Ideal))
    (t : Fin 4096) (f : Fin 1024) :
    val_main_v45 (F := Ideal) x0 x6 (ix2 t f) = ∑ j : Fin 1024, x0 (ix2 t j) * x6 (ix2 j f) := by
  rw [val_main_v45_apply]
  refine Finset.sum_congr rfl fun k _ => ?_
  rw [lidx45, ridx45]

/-- The spelled logistic chain on the shared gate contraction is its logistic function. -/
private theorem v43_at (x0 : (⟨S4096x1024, .f32⟩ : BufTy).Contents (Elt Ideal)) (x5 : (⟨S1024x1024, .f32⟩ : BufTy).Contents (Elt Ideal))
    (i : S4096x1024.Idx) :
    val_main_v43 (F := Ideal) x0 x5 i = Ideal.logistic (val_main_v37 (F := Ideal) x0 x5 i) := by
  rw [val_main_v43_apply, val_main_v42_apply, val_main_cst_6_apply, val_main_v41_apply, val_main_v40_apply,
    val_main_cst_5_apply, val_main_v39_apply, val_main_v38_apply]
  exact spelled_logistic _

/-- The shared gated unit at (t, f). -/
private theorem v46_at (x0 : (⟨S4096x1024, .f32⟩ : BufTy).Contents (Elt Ideal)) (x5 x6 : (⟨S1024x1024, .f32⟩ : BufTy).Contents (Elt Ideal))
    (t : Fin 4096) (f : Fin 1024) :
    val_main_v46 (F := Ideal) x0 x5 x6 (ix2 t f)
      = MoeSpec.gated (∑ j : Fin 1024, x0 (ix2 t j) * x5 (ix2 j f)) (∑ j : Fin 1024, x0 (ix2 t j) * x6 (ix2 j f)) := by
  rw [val_main_v46_apply, val_main_v44_apply, v43_at, v37_at, v45_at]
  exact gated_eq _ _

/-- The shared expert's map at (t, d). -/
private theorem v47_at (x0 : (⟨S4096x1024, .f32⟩ : BufTy).Contents (Elt Ideal)) (x5 x6 x7 : (⟨S1024x1024, .f32⟩ : BufTy).Contents (Elt Ideal))
    (t : Fin 4096) (d : Fin 1024) :
    val_main_v47 (F := Ideal) x0 x5 x6 x7 (ix2 t d)
      = ∑ f : Fin 1024, MoeSpec.gated (∑ j : Fin 1024, x0 (ix2 t j) * x5 (ix2 j f))
          (∑ j : Fin 1024, x0 (ix2 t j) * x6 (ix2 j f)) * x7 (ix2 f d) := by
  rw [val_main_v47_apply]
  refine Finset.sum_congr rfl fun f _ => ?_
  rw [lidx47, ridx47, v46_at]

/-- The token's gate, broadcast along its row: the logistic function of row t against the gate weights' one column. -/
private theorem v55_at (x0 : (⟨S4096x1024, .f32⟩ : BufTy).Contents (Elt Ideal)) (x8 : (⟨S1024x1, .f32⟩ : BufTy).Contents (Elt Ideal))
    (t : Fin 4096) (d : Fin 1024) :
    val_main_v55 (F := Ideal) x0 x8 (ix2 t d)
      = Ideal.logistic (∑ j : Fin 1024, x0 (ix2 t j) * x8 (ix2 j (0 : Fin 1))) := by
  rw [val_main_v55_apply, val_main_v54_apply, val_main_v53_apply, val_main_cst_8_apply, val_main_v52_apply,
    val_main_v51_apply, val_main_cst_7_apply, val_main_v50_apply, val_main_v49_apply, val_main_v48_apply,
    spelled_logistic]
  refine congrArg Ideal.logistic (Finset.sum_congr rfl fun k _ => ?_)
  rw [lidx48, ridx48]

/-! ## The two stages as whole arrays -/

/-- The grouped expert stage is the grouped expert map of the dispatched activations and the three weight arrays. -/
theorem experts_eq (x0 : (⟨S4096x1024, .f32⟩ : BufTy).Contents (Elt Ideal)) (x2 x3 x4 : (⟨S8x1024x1024, .f32⟩ : BufTy).Contents (Elt Ideal))
    (x9 : (⟨S4096x2, .i32⟩ : BufTy).Contents (Elt Ideal)) :
    val_main_v22 (F := Ideal) x0 x2 x3 x4 x9 = MoeSpec.expertMLP (val_main_v11 (F := Ideal) x0 x9) x2 x3 x4 := by
  funext i
  obtain ⟨e, c, d, rfl⟩ : ∃ (e : Fin 8) (c d : Fin 1024), i = ix3 e c d := ⟨i 0, i 1, i 2, eq_ix3 i⟩
  rw [MoeSpec.expertMLP_apply, val_main_v22_apply]
  unfold MoeSpec.expertAt
  refine Finset.sum_congr rfl fun f _ => ?_
  rw [lidx22, ridx22, v21_at]

/-- The result is the shared-expert map of the hidden states and the shared weights, with the combined routed output as
    its additive term. -/
theorem result_eq (x0 : (⟨S4096x1024, .f32⟩ : BufTy).Contents (Elt Ideal)) (x1 : (⟨S4096x2, .f32⟩ : BufTy).Contents (Elt Ideal))
    (x2 x3 x4 : (⟨S8x1024x1024, .f32⟩ : BufTy).Contents (Elt Ideal)) (x5 x6 x7 : (⟨S1024x1024, .f32⟩ : BufTy).Contents (Elt Ideal))
    (x8 : (⟨S1024x1, .f32⟩ : BufTy).Contents (Elt Ideal)) (x9 : (⟨S4096x2, .i32⟩ : BufTy).Contents (Elt Ideal)) :
    val_main_v57 (F := Ideal) x0 x1 x2 x3 x4 x5 x6 x7 x8 x9
      = MoeSpec.sharedOut x0 (val_main_v36 (F := Ideal) x0 x1 x2 x3 x4 x9) x5 x6 x7 x8 := by
  funext i
  obtain ⟨t, d, rfl⟩ : ∃ (t : Fin 4096) (d : Fin 1024), i = ix2 t d := ⟨i 0, i 1, eq_ix2 i⟩
  rw [MoeSpec.sharedOut_apply, val_main_v57_apply]
  generalize val_main_v36 (F := Ideal) x0 x1 x2 x3 x4 x9 = moe
  rw [val_main_v56_apply, v55_at, v47_at]
  exact add_mul_eq _ _ _

end Cert.ReferenceIdeal.Stages

end
-- ==== Proof.Bridge.lean ====
/-
  The two programs compute one function.

  Both programs sort the routing slots by expert, gather the hidden rows in that order, and later gather the experts'
  rows back with the inverse arrangement and sum each token's two weighted slots: the same host operations on the same
  integer input, so the same functions (`dispatch`, `combine`), whatever the sort does.  Between them the kernel's first
  pipelined call and the reference's three batched contractions both compute the grouped expert map of the dispatched
  rows; after them the kernel's second call and the reference's shared stage both compute the shared-expert map with the
  combined routed output as additive term.  The kernel's changes of float format are the identity on extended reals.
  So both results are `layer` of the ten arguments.
-/
import proofs.«156974_j62388694942421_1_alg».proof.Proof.ValueRun
import proofs.«156974_j62388694942421_1_alg».proof.Proof.KernelHost
import proofs.«156974_j62388694942421_1_alg».proof.Proof.Region0
import proofs.«156974_j62388694942421_1_alg».proof.Proof.Region1
import proofs.«156974_j62388694942421_1_alg».proof.Proof.RefStages

set_option maxRecDepth 16384

noncomputable section

namespace Cert.Bridge

open Idealize.ShloMosaic Idealize.ShloMosaic.TcCoe Idealize.SL.Sem
open Cert.KernelIdeal.HostGlue

/-- THE LAYER as one function of the ten argument arrays: dispatch, the grouped expert map, combine, the shared-expert
    map on top. -/
def layer (a0 : (⟨Cert.KernelIdeal.S4096x1024, .f32⟩ : BufTy).Contents (Elt Ideal))
    (a1 : (⟨Cert.KernelIdeal.S4096x2, .f32⟩ : BufTy).Contents (Elt Ideal))
    (a2 a3 a4 : (⟨Cert.KernelIdeal.S8x1024x1024, .f32⟩ : BufTy).Contents (Elt Ideal))
    (a5 a6 a7 : (⟨Cert.KernelIdeal.S1024x1024, .f32⟩ : BufTy).Contents (Elt Ideal))
    (a8 : (⟨Cert.KernelIdeal.S1024x1, .f32⟩ : BufTy).Contents (Elt Ideal))
    (a9 : (⟨Cert.KernelIdeal.S4096x2, .i32⟩ : BufTy).Contents (Elt Ideal)) :
    (⟨Cert.KernelIdeal.S4096x1024, .f32⟩ : BufTy).Contents (Elt Ideal) :=
  MoeSpec.sharedOut a0
    (combine (F := Ideal) (MoeSpec.expertMLP (dispatch (F := Ideal) a0 a9) a2 a3 a4) a1 a9) a5 a6 a7 a8

/-- A change of float format is the identity on extended reals. -/
theorem narrow_id (S : Shape) (x : (⟨S, .f32⟩ : BufTy).Contents (Elt Ideal)) : narrow (F := Ideal) S x = x := rfl

/-! ## The kernel program's result -/

section Kernel
open Cert.KernelIdeal Cert.KernelIdeal.Gen

variable (m : (ℓ : Loc nD τ sig) → Buf (Elt Ideal) ℓ) (ρ : Dev nD → PrngReg)

/-- The first call's result array is the grouped expert map of the dispatched rows and the expert weights. -/
theorem experts_value (c : Dev nD) :
    (dat0 (F := Ideal) (V3 m ρ) c).arrAt 4 cfg0.N
      = MoeSpec.expertMLP (dispatch (F := Ideal) (m ((c.tc : Thread nD τ).loc main_arg0)) (m ((c.tc : Thread nD τ).loc main_arg9)))
          (m ((c.tc : Thread nD τ).loc main_arg2)) (m ((c.tc : Thread nD τ).loc main_arg3)) (m ((c.tc : Thread nD τ).loc main_arg4)) := by
  rw [Cert.KernelIdeal.ExpertRegion.arr (V3 m ρ) c, entry0_xs m ρ c, entry0_wg m ρ c, entry0_wu m ρ c, entry0_wd m ρ c]
  rfl

/-- The program's result buffer, at the last boundary, holds the layer of the launch memory's arguments. -/
theorem kernel_value (c : Dev nD) :
    W8 m ρ c (Proc.devRef .tc main_v35)
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  refine (W8_arr m ρ c 6).trans ?_
  rw [Cert.KernelIdeal.SharedRegion.arr (V7 m ρ) c, entry1_h m ρ c, entry1_moe m ρ c, entry1_swg m ρ c, entry1_swu m ρ c,
    entry1_swd m ρ c, entry1_sgw m ρ c, experts_value m ρ c]
  rfl

end Kernel

/-! ## The reference program's result -/

section Reference
open Cert.ReferenceIdeal Cert.ReferenceIdeal.Gen Cert.ReferenceIdeal.Read

/-- The reference's dispatch stage is the kernel program's, the format change dropped. -/
theorem dispatch_eq (x0 : (⟨S4096x1024, .f32⟩ : BufTy).Contents (Elt Ideal)) (x9 : (⟨S4096x2, .i32⟩ : BufTy).Contents (Elt Ideal)) :
    val_main_v11 (F := Ideal) x0 x9 = dispatch (F := Ideal) x0 x9 := by
  unfold val_main_v11 val_main_v10 val_main_v9 val_main_v8 val_main_v7 val_main_v6 val_main_c_0 val_main_v5 val_main_v4 val_main_c
    val_main_v3 val_main_v2 val_main_v1 val_main_v0 val_main_call0_v0
  unfold dispatch rowIdx order narrow
  rfl

/-- The reference's combine stage is the kernel program's, applied to the reference's expert rows. -/
theorem combine_eq (x0 : (⟨S4096x1024, .f32⟩ : BufTy).Contents (Elt Ideal)) (x1 : (⟨S4096x2, .f32⟩ : BufTy).Contents (Elt Ideal))
    (x2 x3 x4 : (⟨S8x1024x1024, .f32⟩ : BufTy).Contents (Elt Ideal)) (x9 : (⟨S4096x2, .i32⟩ : BufTy).Contents (Elt Ideal)) :
    val_main_v36 (F := Ideal) x0 x1 x2 x3 x4 x9 = combine (F := Ideal) (val_main_v22 (F := Ideal) x0 x2 x3 x4 x9) x1 x9 := by
  unfold val_main_v36 val_main_cst_4 val_main_v35 val_main_v34 val_main_v33 val_main_v32 val_main_v31 val_main_v30 val_main_v29
    val_main_v28 val_main_v27 val_main_c_3 val_main_v26 val_main_v25 val_main_c_2 val_main_v24 val_main_call1_v0 val_main_v23
    val_main_v1 val_main_v0 val_main_call0_v0
  generalize val_main_v22 (F := Ideal) x0 x2 x3 x4 x9 = y
  unfold combine rowIdx invOrder order
  rfl

variable (m' : (ℓ : Loc nD τ sig) → Buf (Elt Ideal) ℓ)

/-- The reference's result term is the layer of its launch memory's arguments. -/
theorem reference_value (c : Dev nD) :
    Cert.ReferenceIdeal.Value.res_main_v57 m' c
      = layer (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5))
          (m' ((c.tc : Thread nD τ).loc main_arg6)) (m' ((c.tc : Thread nD τ).loc main_arg7)) (m' ((c.tc : Thread nD τ).loc main_arg8))
          (m' ((c.tc : Thread nD τ).loc main_arg9)) := by
  rw [val_main_v57_eq, Cert.ReferenceIdeal.Stages.result_eq, combine_eq, Cert.ReferenceIdeal.Stages.experts_eq, dispatch_eq]
  rfl

end Reference

end Cert.Bridge

end
-- ==== Proof.lean ====
/-
  A mixture-of-experts layer, kernel against reference, over the extended reals.

  Every token's hidden row is sent to its two routed experts: the 8192 routing slots are sorted by expert, the rows
  gathered in that order and grouped, eight experts of 1024 slots each; every expert applies its gated two-layer map
      y = ( (x·W_gate) · σ(x·W_gate) · (x·W_up) ) · W_down
  to its rows; the rows are gathered back by the inverse arrangement and each token's two slots are summed with the
  token's routing weights; a shared expert of the same form, scaled by the token's scalar gate σ(x·w_s), is added.
  The kernel does the two gated maps in two pipelined calls (tiles of 512 rows, operands in a shorter float format,
  the logistic function as one operation) and the sorting, gathering and weighted sum on the host; the reference does
  everything on the host (batched contractions, the logistic function spelled 1 / (1 + e^(-x))).  On extended reals a
  change of float format is the identity, a matrix product into a zero accumulator is the plain sum of products, the
  logistic function is that quotient, and a finite sum does not depend on how its range is tiled: the two programs
  compute one function of their ten arguments (`Cert.Bridge.layer`).  No step needs the arguments to be finite, so the
  precondition is never opened.  The idealization rewrote nothing, so `preserves` is trivial.  The three frames are the
  generated ones (the reference's is its generated run with the result dropped).
-/
import proofs.«156974_j62388694942421_1_alg».proof.Defs
import proofs.«156974_j62388694942421_1_alg».proof.Proof.Gen.Kernel
import proofs.«156974_j62388694942421_1_alg».proof.Proof.Gen.Kernel.Frame
import proofs.«156974_j62388694942421_1_alg».proof.Proof.Gen.KernelIdeal
import proofs.«156974_j62388694942421_1_alg».proof.Proof.Gen.KernelIdeal.Frame
import proofs.«156974_j62388694942421_1_alg».proof.Proof.Gen.ReferenceIdeal
import proofs.«156974_j62388694942421_1_alg».proof.Proof.Gen.ReferenceIdeal.Run
import proofs.«156974_j62388694942421_1_alg».proof.Proof.Gen.Pre_finite_inputs
import proofs.«156974_j62388694942421_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at the layer of the (agreeing) arguments. -/
theorem algebraic : Cert.algebraic_KernelIdeal_ReferenceIdeal := by
  intro m ρ m' ρ' _ hagree
  refine ⟨fun c => Cert.Bridge.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.kernel_value m ρ c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.Bridge.reference_value m' c, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
